-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S40x10000 : Shape := ⟨2, ![40, 10000]⟩
abbrev S200x256 : Shape := ⟨2, ![200, 256]⟩
abbrev S40x256 : Shape := ⟨2, ![40, 256]⟩

abbrev nBuf : Space → Nat
  | .hbm => 6
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S40x10000, .f32⟩
  | .local _ .vmem, ⟨1, _⟩ => ⟨S40x10000, .f32⟩
  | .local _ .vmem, ⟨2, _⟩ => ⟨S40x10000, .f32⟩
  | .local _ .vmem, ⟨3, _⟩ => ⟨S40x10000, .f32⟩
  | .local _ .vmem, ⟨4, _⟩ => ⟨S40x10000, .f32⟩
  | .local _ .vmem, ⟨5, _⟩ => ⟨S40x10000, .f32⟩
  | .local _ .vmem, ⟨6, _⟩ => ⟨S40x10000, .f32⟩
  | .local _ .vmem, ⟨7, _⟩ => ⟨S40x10000, .f32⟩
  | .local _ .vmem, ⟨8, _⟩ => ⟨S40x10000, .f32⟩
  | .local _ .vmem, ⟨9, _⟩ => ⟨S40x10000, .f32⟩
  | .local _ .vmem, ⟨10, _⟩ => ⟨S10000x256, .f32⟩
  | .local _ .vmem, ⟨11, _⟩ => ⟨S256x256, .f32⟩
  | .local _ .vmem, ⟨12, _⟩ => ⟨S1x256, .f32⟩
  | .local _ .vmem, ⟨13, _⟩ => ⟨S200x256, .f32⟩
  | .local _ .vmem, ⟨14, _⟩ => ⟨S200x256, .f32⟩
  | .local _ .vmem, ⟨15, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  inb_S40x10000_S40x10000_0_0 : ∀ a, (![0, 0] : Fin 2 → Nat) a + S40x10000.size a ≤ S40x10000.size a
  h_S40x10000 : 0 < S40x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S40x256 : S1x256.Broadcasts S40x256
  inb_S200x256_S40x256_0_0 : ∀ a, (![0, 0] : Fin 2 → Nat) a + S40x256.size a ≤ S200x256.size a
  h_S40x256 : 0 < S40x256.numel
  inb_S200x256_S40x256_40_0 : ∀ a, (![40, 0] : Fin 2 → Nat) a + S40x256.size a ≤ S200x256.size a
  inb_S200x256_S40x256_80_0 : ∀ a, (![80, 0] : Fin 2 → Nat) a + S40x256.size a ≤ S200x256.size a
  inb_S200x256_S40x256_120_0 : ∀ a, (![120, 0] : Fin 2 → Nat) a + S40x256.size a ≤ S200x256.size a
  inb_S200x256_S40x256_160_0 : ∀ a, (![160, 0] : Fin 2 → Nat) a + S40x256.size a ≤ S200x256.size a
  dot_S10000x256_S256x256_S10000x256_1_0_0_1_n_n_wf : DotDims.WF S10000x256 S256x256 S10000x256 [1] [0] [0] [1] [] []
  dot_S40x10000_S10000x256_S40x256_1_0_0_1_n_n_wf : DotDims.WF S40x10000 S10000x256 S40x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x10000.size a ≤ S10000x10000.size a
  hwx0_0 : ∀ i : grid0.Coords, EltTy.bits .f32 = 32 ∨ (Rect.block (s := S10000x10000) S40x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x10000.size a ≤ S10000x10000.size a
  hwx0_1 : ∀ i : grid0.Coords, EltTy.bits .f32 = 32 ∨ (Rect.block (s := S10000x10000) S40x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x10000.size a ≤ S10000x10000.size a
  hwx0_2 : ∀ i : grid0.Coords, EltTy.bits .f32 = 32 ∨ (Rect.block (s := S10000x10000) S40x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x10000.size a ≤ S10000x10000.size a
  hwx0_3 : ∀ i : grid0.Coords, EltTy.bits .f32 = 32 ∨ (Rect.block (s := S10000x10000) S40x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S40x10000.size a ≤ S10000x10000.size a
  hwx0_4 : ∀ i : grid0.Coords, EltTy.bits .f32 = 32 ∨ (Rect.block (s := S10000x10000) S40x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x256.size a ≤ S10000x256.size a
  hwx0_5 : ∀ i : grid0.Coords, EltTy.bits .f32 = 32 ∨ (Rect.block (s := S10000x256) S10000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x256.size a ≤ S10000x256.size a
  hwx0_8 : ∀ i : grid0.Coords, EltTy.bits .f32 = 32 ∨ (Rect.block (s := S10000x256) S200x256.size (cc0_transform_8 i) (hinb0_8 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S40x10000_S10000x256_S40x256_1_0_0_1_n_n : DotDims S40x10000 S10000x256 S40x256 where
  lhsContracting := [1]
  rhsContracting := [0]
  lhsNonContracting := [0]
  rhsNonContracting := [1]
  lhsBatch := []
  rhsBatch := []
  wf := dot_S40x10000_S10000x256_S40x256_1_0_0_1_n_n_wf

abbrev win0_0 : Pipeline.Window sig grid0 :=
  Pipeline.Window.ofSpec (Memref.whole main_arg1) S40x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S40x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S40x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S40x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S10000x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S200x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibSharedTrack.lean ====
/-
  The frame run of a one-region pipeline kernel whose INPUT windows may share an array and whose body CARRIES
  something in its scratch buffers from one grid point to the next.

  A kernel handed one array through several input windows holds that array's buffer once, so the windows on it
  cannot each hold it at the full share: the proof data name a share per window, and the certificate says how the
  distinct buffers behind the arrays, each whole at the full share, are dealt among the windows (`hsplit`).
  The region invariant is the certificate's own at every point (what the scratch holds after each point), entered
  from the scoped buffers the pipeline does not stage at some contents (`hin`: before the first point the scratch
  holds anything) and returned to that after the last point (`hout`: the scratch's contents forgotten).  The body
  uses no semaphore of its own; every unscoped buffer that is no window's array bypasses the region and is read
  back unchanged.  The conclusion is the library's `FramePost`.  With a constant invariant this is the plain
  frame run for shared windows.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays, with a tracking invariant: from any memory with zero counters
    every weakly fair execution of @main terminates; every array of the pipeline ends at what the library computes
    from the proof data (`Dat.arrAt … N`) and every other unscoped buffer at what it held when the region was
    entered (`V`). -/
theorem θ_run_frame_shared_track
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (cfg).spec c : sProp 𝕄) ⊢ (dats p c).Φ 0)
    (hout : ∀ c, (dats p c).Φ (Fin.last (cfg).N) ⊢ (scopedRest (Ix := Unit) (Name := ℕ) (U := UR sig nD τ) (Lvl := ℕ) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      iintro ⟨-, HR⟩
      iapply (hin c)
      iexact HR)
    (hout := fun c => by
      iintro HΦ
      isplitr; · iempintro
      iapply (hout c)
      iexact HΦ)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.IdealRuns.lean ====
/-
  The frame of the graph-convolution kernel, first part: what the two runs of its body share.

  The kernel is one pipelined call over 50 grid points.  Five input windows read consecutive 40-row slabs of the
  adjacency matrix (all five on the same array), three more hold the features, the weights and the bias row whole,
  and the output window is a 200-row slab of the result.  A scratch buffer the size of the features holds the
  product features·weights: the body computes it at the first grid point only and reads it back at every point.
  So the body has two control cases: the first point (the product is stored, then used) and every later point
  (the product is found in the scratch as the first point left it).

  Here: the contents of the arrays when the region is entered (one host reshape of the bias precedes it), the
  main program up to the region, each window's block at a point, the condition of the body's branch in closed
  form over the grid, and the memrefs the body is called with.
-/
import proofs.«118786_g12412455485612_cont_sun_m_998_14_alg».proof.Proof.Gen.KernelIdeal.Launch
import proofs.«118786_g12412455485612_cont_sun_m_998_14_alg».proof.Proof.Gen.KernelIdeal.Skeleton
import proofs.«118786_g12412455485612_cont_sun_m_998_14_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main program around the region -/

/-- What core `c`'s buffers hold when the region is entered: the launch contents after the one host operation
    (the bias reshaped to a row). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The main program is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not, for any proof data
    whose array is the entry contents and whose body leaves the block in place (the index map of a window that
    is not fetched has not moved; no window here is cut or idle). One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: the point is the first. -/
abbrev cond0 (i : grid0.Coords) : Prop := (Scalar.cmpi .ne (Scalar.extui (Scalar.cmpi .eq (BitVec.ofNat 32 (i 0).val) 0#32)) 0#32) = 1#1
/-- It holds at point 0 only, decided over the grid. -/
theorem hcond0 : ∀ t : Fin cfg0.N, cond0 (grid0.coords t) ↔ t.val % 50 = 0 :=
  (by decide +kernel : ∀ t : Fin grid0.N, cond0 (grid0.coords t) ↔ t.val % 50 = 0)

/-! ## The memrefs the body is called with -/

abbrev ms0 (t : Fin cfg0.N) : Memref sig .tc .vmem S40x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S200x256 .f32 := win0_8.stage (cfg0.slots t 8)
abbrev hs8 (t : Fin cfg0.N) : (ms8 t).IsWhole := hstage0_8 ((cfg0.slots t 8).cast nbuf0_8)
/-- The scratch that carries the product features·weights from the first point on. -/
abbrev scM : Memref sig .tc .vmem S10000x256 .f32 := Memref.whole cc0_scratch0
/-- One staging buffer of the output window and the scratch, as views: contents are stated through them. -/
abbrev VO : View sig .tc .vmem S200x256 .f32 := (Memref.whole cc0_stg8_0 : Memref sig .tc .vmem S200x256 .f32).view
abbrev VS : View sig .tc .vmem S10000x256 .f32 := scM.view

/-- The scoped buffers the pipeline does not stage are the scratch alone, owned as a memref at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Fr

end
-- ==== Proof.IdealRunB.lean ====
/-
  The body of the graph-convolution kernel at a grid point that is NOT the first: the branch is skipped, the
  scratch is only read (it holds the product features·weights as the first point left it), and each of the five
  adjacency slabs is multiplied with it, the bias row added and the result clamped at zero from below, into
  its 40-row slice of the output block.  The run is symbolic; what the five stores leave in the output's
  staging buffer is the list of pieces the run finds.
-/
import proofs.«118786_g12412455485612_cont_sun_m_998_14_alg».proof.Proof.IdealRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later point: on whole staging memrefs, the inputs' at their contents, the output's at anything and the
    scratch at contents `xs`, the body runs to the continuation holding the inputs' and the scratch as they were
    and the output's buffer with the found pieces written. -/
noncomputable def kernelRunB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : ¬cond0 i)
    (x0 x1 x2 x3 x4 : Vec F S40x10000 .f32) (x5 : Vec F S10000x256 .f32) (x6 : Vec F S256x256 .f32) (x7 : Vec F S1x256 .f32) (xs : Vec F S10000x256 .f32) :
    { L9 : List (View.Piece (Elt F) S200x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg10.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]
    · iexists _; iexact H9
    iexists _; isplitr; · ipureintro; exact harg10.read_unread _
    iexact HS

end Cert.KernelIdeal.Fr

end
-- ==== Proof.IdealRunA.lean ====
/-
  The body of the graph-convolution kernel at the FIRST grid point: the branch is taken, so the product
  features·weights is computed and stored over the whole scratch, and then each of the five adjacency slabs is
  multiplied with the scratch read back, the bias row added and the result clamped at zero from below, into its
  40-row slice of the output block.  The run is symbolic; what the stores leave in the scratch and in the
  output's staging buffer are the lists of pieces the run finds.
-/
import proofs.«118786_g12412455485612_cont_sun_m_998_14_alg».proof.Proof.IdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole staging memrefs, the inputs' at their contents, the output's and the scratch at
    anything, the body runs to the continuation holding the inputs' as they were and the output's buffer and the
    scratch with the found pieces written. -/
noncomputable def kernelRunA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) :
    Σ' (L9 : List (View.Piece (Elt F) S200x256 .f32)), { LS : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]
    · iexists _; iexact H9
    iexists _; iexact HS

end Cert.KernelIdeal.Fr

end
-- ==== Proof.IdealShares.lean ====
/-
  How the graph-convolution kernel's arrays are dealt among its windows.  Five input windows read the adjacency
  matrix, so its buffer, held whole when the region is entered, is cut into five shares (the full share
  halved, each half halved, and the right half's right half halved once more: left·left, left·right, right·left,
  right·right·left, right·right·right), one per window; every
  other array has one window, which holds it at the full share.
-/
import proofs.«118786_g12412455485612_cont_sun_m_998_14_alg».proof.Proof.IdealRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each input window holds of its array. -/
def qsh : Fin cfg0.W → PosShare TreeShare := fun w => match w with
  | ⟨0, _⟩ => fullShare.left.left
  | ⟨1, _⟩ => fullShare.left.right
  | ⟨2, _⟩ => fullShare.right.left
  | ⟨3, _⟩ => fullShare.right.right.left
  | ⟨4, _⟩ => fullShare.right.right.right
  | ⟨5, _⟩ => fullShare
  | ⟨6, _⟩ => fullShare
  | ⟨7, _⟩ => fullShare
  | ⟨8, _⟩ => fullShare

/-- The five distinct buffers behind the nine windows' arrays, each whole at the full share at contents `V`, give
    every window its array at its share (an output window's at the full share) at the same contents. -/
theorem arrays_split (c : Dev nD) (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (Pipeline.arrBufs (Ix := Unit) (Name := ℕ) (U := UR sig nD τ) (Lvl := ℕ) spec0 c V : sProp 𝕄)
      ⊢ bigSep Finset.univ fun w : Fin cfg0.W =>
          (cfg0.win w).arr.view.loc (c.tc : Thread nD τ) ↦[(cfg0.win w).arr.view.set]{if (cfg0.win w).isOut then fullShare else qsh w} A w := by
  -- the windows' contents are the buffers' contents, and a whole array's elements are all its buffer's
  obtain rfl : A = fun w => V (Pipeline.arrRef spec0 w) := funext hA
  have hset : ∀ w : Fin cfg0.W, (cfg0.win w).arr.view.set = Finset.univ := fun w => (arr_whole0 w).set_eq_univ
  unfold Pipeline.arrBufs
  simp only [hset]
  -- the five distinct buffers on the left, the nine windows on the right, one by one
  rw [bigSep_eq_bigSepL_of_eq [main_arg1, main_arg0, main_arg2, main_v0, main_v1] (by decide) (by decide), bigSep_W0]
  show (iprop(((c.tc : Thread nD τ).loc main_arg1 ↦{fullShare} V main_arg1) ∗
      ((c.tc : Thread nD τ).loc main_arg0 ↦{fullShare} V main_arg0) ∗
      ((c.tc : Thread nD τ).loc main_arg2 ↦{fullShare} V main_arg2) ∗
      ((c.tc : Thread nD τ).loc main_v0 ↦{fullShare} V main_v0) ∗
      ((c.tc : Thread nD τ).loc main_v1 ↦{fullShare} V main_v1)) : sProp 𝕄) ⊢ iprop(
      ((c.tc : Thread nD τ).loc main_arg1 ↦{fullShare.left.left} V main_arg1) ∗
      ((c.tc : Thread nD τ).loc main_arg1 ↦{fullShare.left.right} V main_arg1) ∗
      ((c.tc : Thread nD τ).loc main_arg1 ↦{fullShare.right.left} V main_arg1) ∗
      ((c.tc : Thread nD τ).loc main_arg1 ↦{fullShare.right.right.left} V main_arg1) ∗
      ((c.tc : Thread nD τ).loc main_arg1 ↦{fullShare.right.right.right} V main_arg1) ∗
      ((c.tc : Thread nD τ).loc main_arg0 ↦{fullShare} V main_arg0) ∗
      ((c.tc : Thread nD τ).loc main_arg2 ↦{fullShare} V main_arg2) ∗
      ((c.tc : Thread nD τ).loc main_v0 ↦{fullShare} V main_v0) ∗
      ((c.tc : Thread nD τ).loc main_v1 ↦{fullShare} V main_v1))
  iintro H
  icases H with ⟨H1, H0, H2, Hv0, Hv1⟩
  -- the buffer the five input windows share: the full share halved, then each half, then the right half's right half
  ihave H1 := (pointsTo_share (PosShare.mem_left_op_right fullShare)).1 $$ H1
  icases H1 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  ihave HRR := (pointsTo_share (PosShare.mem_left_op_right fullShare.right.right)).1 $$ HRR
  icases HRR with ⟨HRRL, HRRR⟩
  -- each window its conjunct
  isplitl [HLL]
  · iexact HLL
  isplitl [HLR]
  · iexact HLR
  isplitl [HRL]
  · iexact HRL
  isplitl [HRRL]
  · iexact HRRL
  isplitl [HRRR]
  · iexact HRRR
  isplitl [H0]
  · iexact H0
  isplitl [H2]
  · iexact H2
  isplitl [Hv0]
  · iexact Hv0
  iexact Hv1

end Cert.KernelIdeal.Fr

end
-- ==== Proof.IdealFrame.lean ====
/-
  The frame of the graph-convolution kernel: what the output's staging buffer and the scratch hold after each grid
  point, the proof data of its pipeline, the body's obligation at every point, and the run.

  After the first point the scratch holds the product features·weights that the first point's run stored; every
  later point leaves it as it found it.  After every point the output's staging buffer holds the five 40-row
  slices the point's run stored.  The adjacency matrix is held by its five windows at five shares of its buffer.
-/
import proofs.«118786_g12412455485612_cont_sun_m_998_14_alg».proof.Proof.IdealRunA
import proofs.«118786_g12412455485612_cont_sun_m_998_14_alg».proof.Proof.IdealShares
import proofs.«118786_g12412455485612_cont_sun_m_998_14_alg».proof.Proof.LibSharedTrack

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's five output stores tile the output block. -/
theorem coverA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) (y : S200x256.Idx) :
    ∃ pc ∈ (kernelRunA c i arg1 harg1 arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (kernelRunA c i arg1 harg1 arg2 harg2 arg3 harg3 arg4 harg4 arg5 harg5 arg6 harg6 arg7 harg7 arg8 harg8 arg9 harg9 arg10 harg10 hc x0 x1 x2 x3 x4 x5 x6 x7).1 S40x256.size (by sl_kernel_rfl) y

/-- What the first point leaves in the output's staging buffer. -/
def outA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) : Vec F S200x256 .f32 :=
  VO.read (Elt F) (VO.writes (Elt F) VO.junk (kernelRunA c i arg1 harg1 arg2 harg2 arg3 harg3 arg4 harg4 arg5 harg5 arg6 harg6 arg7 harg7 arg8 harg8 arg9 harg9 arg10 harg10 hc x0 x1 x2 x3 x4 x5 x6 x7).1)

/-- The first point's one scratch store covers the scratch. -/
theorem scoverA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) (y : S10000x256.Idx) :
    ∃ pc ∈ (kernelRunA c i arg1 harg1 arg2 harg2 arg3 harg3 arg4 harg4 arg5 harg5 arg6 harg6 arg7 harg7 arg8 harg8 arg9 harg9 arg10 harg10 hc x0 x1 x2 x3 x4 x5 x6 x7).2.1, y ∈ pc.1.set :=
  View.cover_of_tiledL (kernelRunA c i arg1 harg1 arg2 harg2 arg3 harg3 arg4 harg4 arg5 harg5 arg6 harg6 arg7 harg7 arg8 harg8 arg9 harg9 arg10 harg10 hc x0 x1 x2 x3 x4 x5 x6 x7).2.1 S10000x256.size (by sl_kernel_rfl) y

/-- What the first point leaves in the scratch. -/
def soutA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) : Vec F S10000x256 .f32 :=
  VS.read (Elt F) (VS.writes (Elt F) VS.junk (kernelRunA c i arg1 harg1 arg2 harg2 arg3 harg3 arg4 harg4 arg5 harg5 arg6 harg6 arg7 harg7 arg8 harg8 arg9 harg9 arg10 harg10 hc x0 x1 x2 x3 x4 x5 x6 x7).2.1)

/-- A later point's five output stores tile the output block. -/
theorem coverB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : ¬cond0 i)
    (x0 x1 x2 x3 x4 : Vec F S40x10000 .f32) (x5 : Vec F S10000x256 .f32) (x6 : Vec F S256x256 .f32) (x7 : Vec F S1x256 .f32) (xs : Vec F S10000x256 .f32) (y : S200x256.Idx) :
    ∃ pc ∈ (kernelRunB c i arg1 harg1 arg2 harg2 arg3 harg3 arg4 harg4 arg5 harg5 arg6 harg6 arg7 harg7 arg8 harg8 arg9 harg9 arg10 harg10 hc x0 x1 x2 x3 x4 x5 x6 x7 xs).1, y ∈ pc.1.set :=
  View.cover_of_tiledL (kernelRunB c i arg1 harg1 arg2 harg2 arg3 harg3 arg4 harg4 arg5 harg5 arg6 harg6 arg7 harg7 arg8 harg8 arg9 harg9 arg10 harg10 hc x0 x1 x2 x3 x4 x5 x6 x7 xs).1 S40x256.size (by sl_kernel_rfl) y

/-- What a later point leaves in the output's staging buffer, the scratch holding `xs`. -/
def outB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : ¬cond0 i)
    (x0 x1 x2 x3 x4 : Vec F S40x10000 .f32) (x5 : Vec F S10000x256 .f32) (x6 : Vec F S256x256 .f32) (x7 : Vec F S1x256 .f32) (xs : Vec F S10000x256 .f32) : Vec F S200x256 .f32 :=
  VO.read (Elt F) (VO.writes (Elt F) VO.junk (kernelRunB c i arg1 harg1 arg2 harg2 arg3 harg3 arg4 harg4 arg5 harg5 arg6 harg6 arg7 harg7 arg8 harg8 arg9 harg9 arg10 harg10 hc x0 x1 x2 x3 x4 x5 x6 x7 xs).1)

/-! ## Point by point -/

/-- A point after the first does not take the branch. -/
theorem not_cond_succ (n : ℕ) (hn : n + 1 < cfg0.N) : ¬cond0 (grid0.coords ⟨n + 1, hn⟩) := fun h => by
  have h' := (hcond0 ⟨n + 1, hn⟩).mp h
  have hN : n + 1 < 50 := lt_of_lt_of_eq hn (show cfg0.N = 50 from N_0)
  (try dsimp only at h'); omega

/-- What the output's staging buffer and the scratch hold after the body at position `n`: the first point's run at
    point 0; afterwards the later points' run over the scratch the point before left, which it leaves as it was. -/
def outsAt (c : Dev nD) : (n : ℕ) → n < cfg0.N → Vec F S200x256 .f32 × Vec F S10000x256 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (not_cond_succ n hn) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2,
              (outsAt c n (Nat.lt_of_succ_lt hn)).2)

/-- `outsAt` at the first point. -/
theorem outsAt_first (c : Dev nD) (t : Fin cfg0.N) (h0 : t.val = 0) (hc : cond0 (grid0.coords t)) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc (iblk m c 0 t) (iblk m c 1 t) (iblk m c 2 t) (iblk m c 3 t) (iblk m c 4 t) (iblk m c 5 t) (iblk m c 6 t) (iblk m c 7 t),
              soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact absurd h0 (Nat.succ_ne_zero n)

/-- `outsAt` at a later point: that run over what the point before left in the scratch, which stays. -/
theorem outsAt_later (c : Dev nD) (t : Fin cfg0.N) (h0 : t.val ≠ 0) (hc : ¬cond0 (grid0.coords t)) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2,
              (outsAt m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch at anything; afterwards the
    scratch at what the point before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The pipeline's proof data -/

/-- The proof data of the pipeline on core `c`: the arrays as the region finds them; after the body at point `t`
    each input's buffer at its block and the output's at `outsAt`; the invariant `PhiS`; nothing owed; the
    adjacency's five windows at their five shares, every other input window at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q := qsh
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (outsAt m c t.val t.isLt).1 := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 4800000 in
/-- The body at any point: the inputs' memrefs hold their blocks; the closed form says which case the point is in;
    the invariant hands the body the scratch (at anything at the first point, at what the point before left
    afterwards) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [after_0, after_1, after_2, after_3, after_4, after_5, after_6, after_7, after_8]
  have hN : t.val < 50 := lt_of_lt_of_eq t.isLt (show cfg0.N = 50 from N_0)
  by_cases hz : t.val = 0
  · have hc : cond0 (grid0.coords t) := (hcond0 t).mpr (by rw [hz])
    rw [outsAt_first m c t hz hc]
    unfold outA soutA; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunA c (grid0.coords t) _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS]
    · unfold owns; iexists _; isplitr
      swap; · iexact HS
      ipureintro; exact View.read_writes_of_cover _ _ _ _ _ (scoverA c _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA c _ _ _ _ _ _ _ _ _ _ _ _ _ _ _ _ _ _ _ _ _ _ _ _ _ _ _ _ _ _)
  · have hc : ¬cond0 (grid0.coords t) := fun h => hz (by have := (hcond0 t).mp h; omega)
    rw [outsAt_later m c t hz hc]
    unfold outB; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB c _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the scoped buffers (the scratch at anything) is the invariant before the
    first point. -/
theorem hin (c : Dev nD) : (Pipeline.scopedRest (Ix := Unit) (Name := ℕ) (U := UR sig nD τ) (Lvl := ℕ) spec0 c : sProp 𝕄) ⊢ (dats m 0 c).Φ 0 := by
  rw [show (dats m 0 c).Φ 0 = PhiS m c 0 (Nat.zero_le _) from rfl, PhiS_zero m c 0 _ rfl, scopedRest_scratch]
  try exact Idealize.SL.BI.Entails.refl _

/-- After the last point the invariant gives the scratch back, its contents forgotten. -/
theorem hout (c : Dev nD) : (dats m 0 c).Φ (Fin.last cfg0.N) ⊢ (Pipeline.scopedRest (Ix := Unit) (Name := ℕ) (U := UR sig nD τ) (Lvl := ℕ) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), scopedRest_scratch]
  iintro HS
  iexists _; iexact HS

/-- The buffers behind the arrays, whole at the entry contents, are the proof data's arrays at entry. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) :=
  arrays_split c (V m c) (fun w => (dats m 0 c).arrAt w 0) (fun w => A_eq m c w)

/-! ## The run and the frame -/

set_option backward.isDefEq.respectTransparency.types false in
/-- From any memory with zero counters every weakly fair execution of the main program terminates, and every final
    state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame_shared_track cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- The frame: the run terminates without a fault and the four argument arrays end unchanged — the three the
    pipeline reads as inputs by the library's reading of an input array, the bias (which only the host reshape
    reads) as a buffer that bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (((dats m 0 c).arrAt_in 5 rfl _).trans ((A_eq m c 5).trans (V_main_arg0 m c))),
     ((h c).1 0).trans (((dats m 0 c).arrAt_in 0 rfl _).trans ((A_eq m c 0).trans (V_main_arg1 m c))),
     ((h c).1 6).trans (((dats m 0 c).arrAt_in 6 rfl _).trans ((A_eq m c 6).trans (V_main_arg2 m c))),
     ((h c).2 main_arg3 (Pipeline.mem_restRefs_of main_arg3 (by decide) (by decide))).trans (V_main_arg3 m c)⟩) (run_main m ρ)

end Cert.KernelIdeal.Fr

end
-- ==== Proof.IdealPieces.lean ====
/-
  What the two runs of the graph-convolution kernel's body found, read as values.  At every point the five stores
  into the output block are the five payloads — slab times scratch, plus the bias row, clamped at zero — over the
  five adjacency blocks, in rows 0–39, 40–79, …, 160–199; at the first point the scratch store is the product
  features·weights, and the scratch the five payloads read there is that product read back.
-/
import proofs.«118786_g12412455485612_cont_sun_m_998_14_alg».proof.Proof.IdealFrame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The five 40-row slices a point stores into its output block, last stored first: slice `r` is the payload over
    adjacency block `r`, the scratch `xs` and the bias row. -/
def pcs (x0 x1 x2 x3 x4 : Vec F S40x10000 .f32) (xs : Vec F S10000x256 .f32) (x7 : Vec F S1x256 .f32) :
    List (View.Piece (Elt F) S200x256 .f32) :=
  [⟨Rect.unit (s := S200x256) ![160, 0] S40x256.size inb_S200x256_S40x256_160_0, k0_pay3 x4 xs x7⟩,
   ⟨Rect.unit (s := S200x256) ![120, 0] S40x256.size inb_S200x256_S40x256_120_0, k0_pay2 x3 xs x7⟩,
   ⟨Rect.unit (s := S200x256) ![80, 0] S40x256.size inb_S200x256_S40x256_80_0, k0_pay1 (k0_pay7 x2 xs) x7⟩,
   ⟨Rect.unit (s := S200x256) ![40, 0] S40x256.size inb_S200x256_S40x256_40_0, k0_pay6 x1 xs x7⟩,
   ⟨Rect.unit (s := S200x256) ![0, 0] S40x256.size inb_S200x256_S40x256_0_0, k0_pay5 x0 xs x7⟩]

/-- A later point's found pieces are the five slices over the scratch as found. -/
theorem piecesB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : ¬cond0 i)
    (x0 x1 x2 x3 x4 : Vec F S40x10000 .f32) (x5 : Vec F S10000x256 .f32) (x6 : Vec F S256x256 .f32) (x7 : Vec F S1x256 .f32) (xs : Vec F S10000x256 .f32) :
    (kernelRunB c i arg1 harg1 arg2 harg2 arg3 harg3 arg4 harg4 arg5 harg5 arg6 harg6 arg7 harg7 arg8 harg8 arg9 harg9 arg10 harg10 hc x0 x1 x2 x3 x4 x5 x6 x7 xs).1 = pcs x0 x1 x2 x3 x4 xs x7 := by
  unfold kernelRunB
  dsimp only
  sl_unfold_words
  simp only [View.readAt_eq_ld, harg1.read_unread, harg2.read_unread, harg3.read_unread, harg4.read_unread, harg5.read_unread, harg6.read_unread, harg7.read_unread, harg8.read_unread, harg10.read_unread, View.ld_unit_zero (S := S40x10000) hz, View.ld_unit_zero (S := S10000x256) hz, View.ld_unit_zero (S := S256x256) hz, View.ld_unit_zero (S := S1x256) hz]
  rfl

/-- So a later point leaves the canon of the five slices in the output's staging buffer. -/
theorem outB_eq (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : ¬cond0 i)
    (x0 x1 x2 x3 x4 : Vec F S40x10000 .f32) (x5 : Vec F S10000x256 .f32) (x6 : Vec F S256x256 .f32) (x7 : Vec F S1x256 .f32) (xs : Vec F S10000x256 .f32) :
    outB c i arg1 harg1 arg2 harg2 arg3 harg3 arg4 harg4 arg5 harg5 arg6 harg6 arg7 harg7 arg8 harg8 arg9 harg9 arg10 harg10 hc x0 x1 x2 x3 x4 x5 x6 x7 xs = View.canon (pcs x0 x1 x2 x3 x4 xs x7) := by
  unfold outB
  rw [View.read_writes_eq_canon _ _ _ (coverB c i arg1 harg1 arg2 harg2 arg3 harg3 arg4 harg4 arg5 harg5 arg6 harg6 arg7 harg7 arg8 harg8 arg9 harg9 arg10 harg10 hc x0 x1 x2 x3 x4 x5 x6 x7 xs)]
  exact congrArg View.canon (piecesB c i arg1 harg1 arg2 harg2 arg3 harg3 arg4 harg4 arg5 harg5 arg6 harg6 arg7 harg7 arg8 harg8 arg9 harg9 arg10 harg10 hc x0 x1 x2 x3 x4 x5 x6 x7 xs)

/-- The first point's found pieces: the five slices over the product read back, and the one scratch store of the
    product features·weights. -/
theorem piecesA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) :
    (kernelRunA c i arg1 harg1 arg2 harg2 arg3 harg3 arg4 harg4 arg5 harg5 arg6 harg6 arg7 harg7 arg8 harg8 arg9 harg9 arg10 harg10 hc x0 x1 x2 x3 x4 x5 x6 x7).1 = pcs x0 x1 x2 x3 x4 (k0_pay4 x5 x6) x7
    ∧ (kernelRunA c i arg1 harg1 arg2 harg2 arg3 harg3 arg4 harg4 arg5 harg5 arg6 harg6 arg7 harg7 arg8 harg8 arg9 harg9 arg10 harg10 hc x0 x1 x2 x3 x4 x5 x6 x7).2.1
        = [⟨Rect.unit (s := S10000x256) ![0, 0] S10000x256.size inb_S10000x256_S10000x256_0_0, k0_pay4 x5 x6⟩] := by
  refine ⟨?_, ?_⟩
  · unfold kernelRunA
    dsimp only
    sl_unfold_words
    simp only [View.readCov_unit_zero (S := S10000x256) _ hz, View.readAt_eq_ld, harg1.read_unread, harg2.read_unread, harg3.read_unread, harg4.read_unread, harg5.read_unread, harg6.read_unread, harg7.read_unread, harg8.read_unread, harg10.read_unread, View.ld_unit_zero (S := S40x10000) hz, View.ld_unit_zero (S := S10000x256) hz, View.ld_unit_zero (S := S256x256) hz, View.ld_unit_zero (S := S1x256) hz]
    try rfl
  · unfold kernelRunA
    dsimp only
    sl_unfold_words
    simp only [View.readAt_eq_ld, harg1.read_unread, harg2.read_unread, harg3.read_unread, harg4.read_unread, harg5.read_unread, harg6.read_unread, harg7.read_unread, harg8.read_unread, harg10.read_unread, View.ld_unit_zero (S := S40x10000) hz, View.ld_unit_zero (S := S10000x256) hz, View.ld_unit_zero (S := S256x256) hz, View.ld_unit_zero (S := S1x256) hz]
    try rfl

/-- So the first point leaves the canon of the five slices over the product in the output's staging buffer, -/
theorem outA_eq (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) :
    outA c i arg1 harg1 arg2 harg2 arg3 harg3 arg4 harg4 arg5 harg5 arg6 harg6 arg7 harg7 arg8 harg8 arg9 harg9 arg10 harg10 hc x0 x1 x2 x3 x4 x5 x6 x7 = View.canon (pcs x0 x1 x2 x3 x4 (k0_pay4 x5 x6) x7) := by
  unfold outA
  rw [View.read_writes_eq_canon _ _ _ (coverA c i arg1 harg1 arg2 harg2 arg3 harg3 arg4 harg4 arg5 harg5 arg6 harg6 arg7 harg7 arg8 harg8 arg9 harg9 arg10 harg10 hc x0 x1 x2 x3 x4 x5 x6 x7)]
  exact congrArg View.canon (piecesA c i arg1 harg1 arg2 harg2 arg3 harg3 arg4 harg4 arg5 harg5 arg6 harg6 arg7 harg7 arg8 harg8 arg9 harg9 arg10 harg10 hc x0 x1 x2 x3 x4 x5 x6 x7).1

/-- and the product features·weights in the scratch. -/
theorem soutA_eq (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S10000x256 .f32) (harg10 : arg10.IsWhole) (hc : cond0 i)
    (x0 x1 x2 x3 x4 : Vec F S40x10000 .f32) (x5 : Vec F S10000x256 .f32) (x6 : Vec F S256x256 .f32) (x7 : Vec F S1x256 .f32) :
    soutA c i arg1 harg1 arg2 harg2 arg3 harg3 arg4 harg4 arg5 harg5 arg6 harg6 arg7 harg7 arg8 harg8 arg9 harg9 arg10 harg10 hc x0 x1 x2 x3 x4 x5 x6 x7 = k0_pay4 x5 x6 := by
  unfold soutA
  rw [View.read_writes_eq_canon _ _ _ (scoverA c i arg1 harg1 arg2 harg2 arg3 harg3 arg4 harg4 arg5 harg5 arg6 harg6 arg7 harg7 arg8 harg8 arg9 harg9 arg10 harg10 hc x0 x1 x2 x3 x4 x5 x6 x7)]
  exact (congrArg View.canon (piecesA c i arg1 harg1 arg2 harg2 arg3 harg3 arg4 harg4 arg5 harg5 arg6 harg6 arg7 harg7 arg8 harg8 arg9 harg9 arg10 harg10 hc x0 x1 x2 x3 x4 x5 x6 x7).2).trans (View.canon_unit_zero hz _ _)

end Cert.KernelIdeal.Val

end
-- ==== Proof.IdealBlocks.lean ====
/-
  The graph-convolution kernel's input blocks, read at an index off the arrays the region finds: window r of the
  five adjacency windows holds, at grid point t, rows 200·t + 40·r … 200·t + 40·r + 39 of the adjacency matrix;
  the features, weights and bias windows hold their arrays whole at every point; and the bias row the region
  finds is the bias vector reshaped.
-/
import proofs.«118786_g12412455485612_cont_sun_m_998_14_alg».proof.Proof.IdealRuns
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Row `200·t + 40·r + p` of the adjacency matrix: local row `p` of the block window `r` holds at point `t`. -/
def rowOf (t : Fin cfg0.N) (r : Fin 5) (p : Fin 40) : Fin 10000 :=
  ⟨200 * t.val + 40 * r.val + p.val, by
    have h1 : t.val < 50 := lt_of_lt_of_eq t.isLt (show cfg0.N = 50 from N_0)
    have h2 := r.isLt; have h3 := p.isLt; omega⟩

/-- The five adjacency windows' blocks at a point, each as a [40, 10000] array. -/
abbrev adjb0 (c : Dev nD) (t : Fin cfg0.N) : Vec F S40x10000 .f32 := iblk m c 0 t
abbrev adjb1 (c : Dev nD) (t : Fin cfg0.N) : Vec F S40x10000 .f32 := iblk m c 1 t
abbrev adjb2 (c : Dev nD) (t : Fin cfg0.N) : Vec F S40x10000 .f32 := iblk m c 2 t
abbrev adjb3 (c : Dev nD) (t : Fin cfg0.N) : Vec F S40x10000 .f32 := iblk m c 3 t
abbrev adjb4 (c : Dev nD) (t : Fin cfg0.N) : Vec F S40x10000 .f32 := iblk m c 4 t
/-- The features, weights and bias-row windows' blocks at a point. -/
abbrev xb (c : Dev nD) (t : Fin cfg0.N) : Vec F S10000x256 .f32 := iblk m c 5 t
abbrev wb (c : Dev nD) (t : Fin cfg0.N) : Vec F S256x256 .f32 := iblk m c 6 t
abbrev bb (c : Dev nD) (t : Fin cfg0.N) : Vec F S1x256 .f32 := iblk m c 7 t

/-- The printed index maps, decided once over the grid: adjacency window `r` is at block row `5·t + r` and block
    column `0`; the features, weights and bias-row windows stay at block `(0, 0)`. -/
theorem idx0 : ∀ t : Fin cfg0.N, win0_0.index t (0 : Fin 2) = 5 * t.val + 0 ∧ win0_0.index t (1 : Fin 2) = 0 :=
  (by decide +kernel : ∀ t : Fin grid0.N, _)
theorem idx1 : ∀ t : Fin cfg0.N, win0_1.index t (0 : Fin 2) = 5 * t.val + 1 ∧ win0_1.index t (1 : Fin 2) = 0 :=
  (by decide +kernel : ∀ t : Fin grid0.N, _)
theorem idx2 : ∀ t : Fin cfg0.N, win0_2.index t (0 : Fin 2) = 5 * t.val + 2 ∧ win0_2.index t (1 : Fin 2) = 0 :=
  (by decide +kernel : ∀ t : Fin grid0.N, _)
theorem idx3 : ∀ t : Fin cfg0.N, win0_3.index t (0 : Fin 2) = 5 * t.val + 3 ∧ win0_3.index t (1 : Fin 2) = 0 :=
  (by decide +kernel : ∀ t : Fin grid0.N, _)
theorem idx4 : ∀ t : Fin cfg0.N, win0_4.index t (0 : Fin 2) = 5 * t.val + 4 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem adjb0_apply (c : Dev nD) (t : Fin cfg0.N) (p : Fin 40) (k : Fin 10000) :
    adjb0 m c t (ix2 p k) = m ((c : Thread nD τ).loc main_arg1) (ix2 (rowOf t 0 p) k) := by
  unfold adjb0 iblk
  rw [View.read_apply]
  show V m c main_arg1 _ = m (c.tc.loc main_arg1) _
  rw [V_main_arg1]
  congr 1
  funext a
  apply Fin.ext
  match a with
  | ⟨0, _⟩ => show win0_0.index t 0 * 40 + 1 * p.val = 200 * t.val + 40 * 0 + p.val; rw [(idx0 t).1]; omega
  | ⟨1, _⟩ => show win0_0.index t 1 * 10000 + 1 * k.val = k.val; rw [(idx0 t).2]; omega
theorem adjb1_apply (c : Dev nD) (t : Fin cfg0.N) (p : Fin 40) (k : Fin 10000) :
    adjb1 m c t (ix2 p k) = m ((c : Thread nD τ).loc main_arg1) (ix2 (rowOf t 1 p) k) := by
  unfold adjb1 iblk
  rw [View.read_apply]
  show V m c main_arg1 _ = m (c.tc.loc main_arg1) _
  rw [V_main_arg1]
  congr 1
  funext a
  apply Fin.ext
  match a with
  | ⟨0, _⟩ => show win0_1.index t 0 * 40 + 1 * p.val = 200 * t.val + 40 * 1 + p.val; rw [(idx1 t).1]; omega
  | ⟨1, _⟩ => show win0_1.index t 1 * 10000 + 1 * k.val = k.val; rw [(idx1 t).2]; omega
theorem adjb2_apply (c : Dev nD) (t : Fin cfg0.N) (p : Fin 40) (k : Fin 10000) :
    adjb2 m c t (ix2 p k) = m ((c : Thread nD τ).loc main_arg1) (ix2 (rowOf t 2 p) k) := by
  unfold adjb2 iblk
  rw [View.read_apply]
  show V m c main_arg1 _ = m (c.tc.loc main_arg1) _
  rw [V_main_arg1]
  congr 1
  funext a
  apply Fin.ext
  match a with
  | ⟨0, _⟩ => show win0_2.index t 0 * 40 + 1 * p.val = 200 * t.val + 40 * 2 + p.val; rw [(idx2 t).1]; omega
  | ⟨1, _⟩ => show win0_2.index t 1 * 10000 + 1 * k.val = k.val; rw [(idx2 t).2]; omega
theorem adjb3_apply (c : Dev nD) (t : Fin cfg0.N) (p : Fin 40) (k : Fin 10000) :
    adjb3 m c t (ix2 p k) = m ((c : Thread nD τ).loc main_arg1) (ix2 (rowOf t 3 p) k) := by
  unfold adjb3 iblk
  rw [View.read_apply]
  show V m c main_arg1 _ = m (c.tc.loc main_arg1) _
  rw [V_main_arg1]
  congr 1
  funext a
  apply Fin.ext
  match a with
  | ⟨0, _⟩ => show win0_3.index t 0 * 40 + 1 * p.val = 200 * t.val + 40 * 3 + p.val; rw [(idx3 t).1]; omega
  | ⟨1, _⟩ => show win0_3.index t 1 * 10000 + 1 * k.val = k.val; rw [(idx3 t).2]; omega
theorem adjb4_apply (c : Dev nD) (t : Fin cfg0.N) (p : Fin 40) (k : Fin 10000) :
    adjb4 m c t (ix2 p k) = m ((c : Thread nD τ).loc main_arg1) (ix2 (rowOf t 4 p) k) := by
  unfold adjb4 iblk
  rw [View.read_apply]
  show V m c main_arg1 _ = m (c.tc.loc main_arg1) _
  rw [V_main_arg1]
  congr 1
  funext a
  apply Fin.ext
  match a with
  | ⟨0, _⟩ => show win0_4.index t 0 * 40 + 1 * p.val = 200 * t.val + 40 * 4 + p.val; rw [(idx4 t).1]; omega
  | ⟨1, _⟩ => show win0_4.index t 1 * 10000 + 1 * k.val = k.val; rw [(idx4 t).2]; omega

/-- The features window holds the features whole. -/
theorem xb_eq (c : Dev nD) (t : Fin cfg0.N) : xb m c t = m ((c : Thread nD τ).loc main_arg0) := by
  funext j
  unfold xb iblk
  rw [View.read_apply]
  show V m c main_arg0 _ = m (c.tc.loc main_arg0) j
  rw [V_main_arg0]
  congr 1
  funext a
  apply Fin.ext
  match a with
  | ⟨0, _⟩ => show win0_5.index t 0 * 10000 + 1 * (j 0).val = (j 0).val; rw [(idx5 t).1]; omega
  | ⟨1, _⟩ => show win0_5.index t 1 * 256 + 1 * (j 1).val = (j 1).val; rw [(idx5 t).2]; omega
/-- The weights window holds the weights whole. -/
theorem wb_eq (c : Dev nD) (t : Fin cfg0.N) : wb m c t = m ((c : Thread nD τ).loc main_arg2) := by
  funext j
  unfold wb iblk
  rw [View.read_apply]
  show V m c main_arg2 _ = m (c.tc.loc main_arg2) j
  rw [V_main_arg2]
  congr 1
  funext a
  apply Fin.ext
  match a with
  | ⟨0, _⟩ => show win0_6.index t 0 * 256 + 1 * (j 0).val = (j 0).val; rw [(idx6 t).1]; omega
  | ⟨1, _⟩ => show win0_6.index t 1 * 256 + 1 * (j 1).val = (j 1).val; rw [(idx6 t).2]; omega
/-- The bias row the region finds is the bias vector reshaped to one row. -/
theorem bias_row (c : Dev nD) :
    (V m c main_v0 : S1x256.Idx → Elt F .f32) = shapeCast S1x256 (m ((c : Thread nD τ).loc main_arg3)) shapeCasts_S256_S1x256 := by
  dsimp only [V, hostOps0]; after_results; rfl

/-- A vector reshaped to one row reads, at column `q` of that row, the vector's entry `q`. -/
theorem bias_row_apply (v : S256.Idx → Elt F .f32) (q : Fin 256) :
    shapeCast S1x256 v shapeCasts_S256_S1x256 (ix2 (0 : Fin 1) q) = v (ix1 q) := by
  refine shapeCast_apply v shapeCasts_S256_S1x256 (ix2 (0 : Fin 1) q) (ix1 q) ?_
  rw [Shape.rowMajor_val_two, Shape.rowMajor_val_one]
  show q.val = 0 * 256 + q.val
  omega

/-- The bias-row window holds the bias vector as a row. -/
theorem bb_apply (c : Dev nD) (t : Fin cfg0.N) (q : Fin 256) :
    bb m c t (ix2 (0 : Fin 1) q) = m ((c : Thread nD τ).loc main_arg3) (ix1 q) := by
  have hidx : ((cfg0.win 7).blk t).view.emb (ix2 (0 : Fin 1) q) = ix2 (0 : Fin 1) q := by
    funext a
    apply Fin.ext
    match a with
    | ⟨0, _⟩ => show win0_7.index t 0 * 1 + 1 * 0 = 0; rw [(idx7 t).1]
    | ⟨1, _⟩ => show win0_7.index t 1 * 256 + 1 * q.val = q.val; rw [(idx7 t).2]; omega
  unfold bb iblk
  rw [View.read_apply, hidx]
  exact (congrFun (bias_row m c) (ix2 (0 : Fin 1) q)).trans (bias_row_apply (m ((c : Thread nD τ).loc main_arg3)) q)

end Cert.KernelIdeal.Val

end
-- ==== Proof.IdealPayloads.lean ====
/-
  The kernel body's seven payloads read at an index, over the extended reals. The support block is the product
  Σ_j x[r, j] · W[j, q]; each of the five row blocks of the result is
  max (Σ_k adj[p, k] · support[k, q] + b[0, q], 0), the product accumulated into the zero array, the bias row
  broadcast over the block's rows, and the zero of the clamp the value of the all-zero bit pattern.
-/
import proofs.«118786_g12412455485612_cont_sun_m_998_14_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## The [40, 10000] · [10000, 256] product at an index -/

/-- The left operand's index at output index `i` and contraction index `q`: its row is `i`'s row. -/
theorem lhs40_0 (i : S40x256.Idx) (q : dot_S40x10000_S10000x256_S40x256_1_0_0_1_n_n.contr.Idx) :
    (dot_S40x10000_S10000x256_S40x256_1_0_0_1_n_n.lhsIdx i q 0).val = (i 0).val := by
  unfold DotDims.lhsIdx
  rw [dif_neg (show ¬(0 : Fin S40x10000.rank) ∈ dot_S40x10000_S10000x256_S40x256_1_0_0_1_n_n.lhsBatch by decide), dif_pos (show (0 : Fin S40x10000.rank) ∈ dot_S40x10000_S10000x256_S40x256_1_0_0_1_n_n.lhsNonContracting by decide)]
  rfl
/-- … and its column is the contraction coordinate. -/
theorem lhs40_1 (i : S40x256.Idx) (q : dot_S40x10000_S10000x256_S40x256_1_0_0_1_n_n.contr.Idx) :
    (dot_S40x10000_S10000x256_S40x256_1_0_0_1_n_n.lhsIdx i q 1).val = (q ⟨0, by decide⟩).val :=
  dot_S40x10000_S10000x256_S40x256_1_0_0_1_n_n.lhsIdx_val_of_single rfl i q
/-- The right operand's row is the contraction coordinate … -/
theorem rhs40_0 (i : S40x256.Idx) (q : dot_S40x10000_S10000x256_S40x256_1_0_0_1_n_n.contr.Idx) :
    (dot_S40x10000_S10000x256_S40x256_1_0_0_1_n_n.rhsIdx i q 0).val = (q ⟨0, by decide⟩).val :=
  dot_S40x10000_S10000x256_S40x256_1_0_0_1_n_n.rhsIdx_val_of_single rfl i q
/-- … and its column is `i`'s column. -/
theorem rhs40_1 (i : S40x256.Idx) (q : dot_S40x10000_S10000x256_S40x256_1_0_0_1_n_n.contr.Idx) :
    (dot_S40x10000_S10000x256_S40x256_1_0_0_1_n_n.rhsIdx i q 1).val = (i 1).val := by
  unfold DotDims.rhsIdx
  rw [dif_neg (show ¬(1 : Fin S10000x256.rank) ∈ dot_S40x10000_S10000x256_S40x256_1_0_0_1_n_n.rhsBatch by decide), dif_pos (show (1 : Fin S10000x256.rank) ∈ dot_S40x10000_S10000x256_S40x256_1_0_0_1_n_n.rhsNonContracting by decide)]
  rfl

/-- Accumulated into the zero array, the product of a [40, 10000] block with a [10000, 256] array is, at row `p` and
    column `q`, the sum over the contraction coordinate of the operands' products. -/
theorem mm40_apply (xa : FVec Ideal S40x10000 .f32) (s : FVec Ideal S10000x256 .f32) (p : Fin 40) (q : Fin 256) :
    matmul dot_S40x10000_S10000x256_S40x256_1_0_0_1_n_n none xa s (constant (F := Ideal) S40x256 .f32 0x00000000#32) (ix2 p q)
      = ∑ k : Fin 10000, xa (ix2 p k) * s (ix2 k q) := by
  simp only [matmul]
  rw [Ideal.matmul_constant_zero_apply, ← Equiv.sum_comp (contrEquiv1 dot_S40x10000_S10000x256_S40x256_1_0_0_1_n_n 10000 rfl rfl).symm]
  refine Finset.sum_congr rfl fun k _ => ?_
  have hk := contrEquiv1_symm_val dot_S40x10000_S10000x256_S40x256_1_0_0_1_n_n 10000 rfl rfl k
  have el : dot_S40x10000_S10000x256_S40x256_1_0_0_1_n_n.lhsIdx (ix2 p q) ((contrEquiv1 dot_S40x10000_S10000x256_S40x256_1_0_0_1_n_n 10000 rfl rfl).symm k) = ix2 p k := funext fun a => Fin.ext (by
    match a with
    | ⟨0, _⟩ => exact lhs40_0 _ _
    | ⟨1, _⟩ => exact (lhs40_1 _ _).trans hk)
  have er : dot_S40x10000_S10000x256_S40x256_1_0_0_1_n_n.rhsIdx (ix2 p q) ((contrEquiv1 dot_S40x10000_S10000x256_S40x256_1_0_0_1_n_n 10000 rfl rfl).symm k) = ix2 k q := funext fun a => Fin.ext (by
    match a with
    | ⟨0, _⟩ => exact (rhs40_0 _ _).trans hk
    | ⟨1, _⟩ => exact rhs40_1 _ _)
  rw [el, er]

/-! ## The [10000, 256] · [256, 256] product at an index -/

/-- The left operand's index at output index `i` and contraction index `q`: its row is `i`'s row. -/
theorem lhsX_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- … and its column is the contraction coordinate. -/
theorem lhsX_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- The right operand's row is the contraction coordinate … -/
theorem rhsX_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- … and its column is `i`'s column. -/
theorem rhsX_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The same for the [10000, 256] · [256, 256] product. -/
theorem mmX_apply (xa : FVec Ideal S10000x256 .f32) (s : FVec Ideal S256x256 .f32) (p : Fin 10000) (q : Fin 256) :
    matmul dot_S10000x256_S256x256_S10000x256_1_0_0_1_n_n none xa s (constant (F := Ideal) S10000x256 .f32 0x00000000#32) (ix2 p q)
      = ∑ k : Fin 256, xa (ix2 p k) * s (ix2 k q) := by
  simp only [matmul]
  rw [Ideal.matmul_constant_zero_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 p q) ((contrEquiv1 dot_S10000x256_S256x256_S10000x256_1_0_0_1_n_n 256 rfl rfl).symm k) = ix2 p k := funext fun a => Fin.ext (by
    match a with
    | ⟨0, _⟩ => exact lhsX_0 _ _
    | ⟨1, _⟩ => exact (lhsX_1 _ _).trans hk)
  have er : dot_S10000x256_S256x256_S10000x256_1_0_0_1_n_n.rhsIdx (ix2 p q) ((contrEquiv1 dot_S10000x256_S256x256_S10000x256_1_0_0_1_n_n 256 rfl rfl).symm k) = ix2 k q := funext fun a => Fin.ext (by
    match a with
    | ⟨0, _⟩ => exact (rhsX_0 _ _).trans hk
    | ⟨1, _⟩ => exact rhsX_1 _ _)
  rw [el, er]

/-! ## Bias and clamp at an index -/

/-- Adding the bias row, broadcast over the 40 rows, and clamping at the zero splat from below: at row `p`, column
    `q` this is `max (acc[p, q] + b[0, q], 0)`. -/
theorem epilogue_apply (acc : FVec Ideal S40x256 .f32) (bb : Vec Ideal S1x256 .f32)
    (hc : S1x256.ShapeCasts S1x256) (hb : S1x256.Broadcasts S40x256) (p : Fin 40) (q : Fin 256) :
    maximumf (addf acc (broadcastTo S40x256 (shapeCast S1x256 bb hc) hb))
        (broadcast S40x256 (Scalar.ofBits (F := Ideal) .f32 0x00000000#32)) (ix2 p q)
      = max (acc (ix2 p q) + bb (ix2 (0 : Fin 1) q)) 0 := by
  rw [maximumf_apply, addf_apply, broadcast_apply, shapeCast_self, broadcastTo_1b_ab_apply]
  show max _ (Ideal.ofBits .f32 0x00000000#32) = _
  rw [Ideal.ofBits_zero_f32]

/-! ## The payloads -/

/-- The support block: features · weights at row `r`, column `q`. -/
theorem pay4_apply (x5 : Vec Ideal S10000x256 .f32) (x6 : Vec Ideal S256x256 .f32) (r : Fin 10000) (q : Fin 256) :
    k0_pay4 (F := Ideal) x5 x6 (ix2 r q) = ∑ j : Fin 256, x5 (ix2 r j) * x6 (ix2 j q) := by
  unfold k0_pay4
  rw [shapeCast_self, mmX_apply]

/-- The first row block of the result: the adjacency block against the support, plus the bias, clamped at zero. -/
theorem pay5_apply (xa : Vec Ideal S40x10000 .f32) (s : Vec Ideal S10000x256 .f32) (bb : Vec Ideal S1x256 .f32) (p : Fin 40) (q : Fin 256) :
    k0_pay5 (F := Ideal) xa s bb (ix2 p q) = max ((∑ k : Fin 10000, xa (ix2 p k) * s (ix2 k q)) + bb (ix2 (0 : Fin 1) q)) 0 := by
  unfold k0_pay5
  rw [epilogue_apply, mm40_apply]

/-- The second row block: the same function of its adjacency block. -/
theorem pay6_apply (xa : Vec Ideal S40x10000 .f32) (s : Vec Ideal S10000x256 .f32) (bb : Vec Ideal S1x256 .f32) (p : Fin 40) (q : Fin 256) :
    k0_pay6 (F := Ideal) xa s bb (ix2 p q) = max ((∑ k : Fin 10000, xa (ix2 p k) * s (ix2 k q)) + bb (ix2 (0 : Fin 1) q)) 0 := by
  unfold k0_pay6
  rw [epilogue_apply, mm40_apply]

/-- The fourth row block: the same function of its adjacency block. -/
theorem pay2_apply (xa : Vec Ideal S40x10000 .f32) (s : Vec Ideal S10000x256 .f32) (bb : Vec Ideal S1x256 .f32) (p : Fin 40) (q : Fin 256) :
    k0_pay2 (F := Ideal) xa s bb (ix2 p q) = max ((∑ k : Fin 10000, xa (ix2 p k) * s (ix2 k q)) + bb (ix2 (0 : Fin 1) q)) 0 := by
  unfold k0_pay2
  rw [epilogue_apply, mm40_apply]

/-- The fifth row block: the same function of its adjacency block. -/
theorem pay3_apply (xa : Vec Ideal S40x10000 .f32) (s : Vec Ideal S10000x256 .f32) (bb : Vec Ideal S1x256 .f32) (p : Fin 40) (q : Fin 256) :
    k0_pay3 (F := Ideal) xa s bb (ix2 p q) = max ((∑ k : Fin 10000, xa (ix2 p k) * s (ix2 k q)) + bb (ix2 (0 : Fin 1) q)) 0 := by
  unfold k0_pay3
  rw [epilogue_apply, mm40_apply]

/-- The third row block, whose product is carried in from the preceding step: the same function of its adjacency
    block. -/
theorem pay1_apply (xa : Vec Ideal S40x10000 .f32) (s : Vec Ideal S10000x256 .f32) (bb : Vec Ideal S1x256 .f32) (p : Fin 40) (q : Fin 256) :
    k0_pay1 (F := Ideal) (k0_pay7 (F := Ideal) xa s) bb (ix2 p q) = max ((∑ k : Fin 10000, xa (ix2 p k) * s (ix2 k q)) + bb (ix2 (0 : Fin 1) q)) 0 := by
  unfold k0_pay1 k0_pay7
  rw [epilogue_apply, mm40_apply]

end Cert.KernelIdeal.Val

end
-- ==== Proof.Spec.lean ====
/-
  What the graph-convolution layer computes, as one function of its four argument arrays, index by index over
  the extended reals:

      support[k, c] = Σ_j x[k, j] · W[j, c]                       (features · weights)
      out[r, c]     = max (Σ_k adj[r, k] · support[k, c] + b[c], 0)

  Both programs compute exactly this association, adj · (x · W), so no law of the extended reals beyond the
  definitions is needed to join them, and finiteness of the inputs is never used.
-/
import Idealize.ShloMosaic.PureOps.Ideal
import Idealize.ShloMosaic.Lib.ValueIdx

noncomputable section

namespace Cert.GcnSpec

open Idealize.ShloMosaic Idealize.ShloMosaic.ValueIdx
open scoped BigOperators

/-- features · weights at row `k`, column `c`. -/
def support (x : (⟨2, ![10000, 256]⟩ : Shape).Idx → EReal) (W : (⟨2, ![256, 256]⟩ : Shape).Idx → EReal)
    (k : Fin 10000) (c : Fin 256) : EReal :=
  ∑ j : Fin 256, x (ix2 k j) * W (ix2 j c)

/-- One entry of the layer's result before the bias and the clamp: row `r` of the adjacency against column `c` of
    the support. -/
def agg (x : (⟨2, ![10000, 256]⟩ : Shape).Idx → EReal) (adj : (⟨2, ![10000, 10000]⟩ : Shape).Idx → EReal)
    (W : (⟨2, ![256, 256]⟩ : Shape).Idx → EReal) (r : Fin 10000) (c : Fin 256) : EReal :=
  ∑ k : Fin 10000, adj (ix2 r k) * support x W k c

/-- The layer: aggregate, add the bias, clamp at zero from below. -/
def G (x : (⟨2, ![10000, 256]⟩ : Shape).Idx → EReal) (adj : (⟨2, ![10000, 10000]⟩ : Shape).Idx → EReal)
    (W : (⟨2, ![256, 256]⟩ : Shape).Idx → EReal) (b : (⟨1, ![256]⟩ : Shape).Idx → EReal) :
    (⟨2, ![10000, 256]⟩ : Shape).Idx → EReal :=
  fun i => max (agg x adj W (i 0) (i 1) + b (ix1 (i 1))) 0

end Cert.GcnSpec

end
-- ==== Proof.IdealValue.lean ====
/-
  The value of the graph-convolution kernel at the ideal instance: after the run the result array holds
  max (adj · (x · W) + b, 0), index by index.

  The scratch holds the product x · W from the first point on (the first point stores it, the later points only
  read it), so at every point each of the five stored slices is, row by row, the layer's function at the rows of
  the adjacency block it was computed from; the five slices tile the point's 200-row output block, the fifty
  blocks tile the result array.
-/
import proofs.«118786_g12412455485612_cont_sun_m_998_14_alg».proof.Proof.IdealPieces
import proofs.«118786_g12412455485612_cont_sun_m_998_14_alg».proof.Proof.IdealBlocks
import proofs.«118786_g12412455485612_cont_sun_m_998_14_alg».proof.Proof.IdealPayloads
import proofs.«118786_g12412455485612_cont_sun_m_998_14_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.GcnSpec
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- The first grid point. -/
def t0 : Fin cfg0.N := ⟨0, by rw [show cfg0.N = 50 from N_0]; decide⟩

/-- The product features·weights, as the first point computes it from the blocks it finds. -/
def sup (c : Dev nD) : Vec Ideal S10000x256 .f32 := k0_pay4 (F := Ideal) (xb m c t0) (wb m c t0)

/-- The layer's function of the four argument arrays as launched. -/
def Gm (c : Dev nD) : (⟨2, ![10000, 256]⟩ : Shape).Idx → EReal :=
  G (m ((c : Thread nD τ).loc main_arg0)) (m ((c : Thread nD τ).loc main_arg1)) (m ((c : Thread nD τ).loc main_arg2)) (m ((c : Thread nD τ).loc main_arg3))

/-! ## Point by point -/

/-- After every point the scratch holds the product. -/
theorem scr_eq (c : Dev nD) : ∀ (n : ℕ) (hn : n < cfg0.N), (outsAt m c n hn).2 = sup m c
  | 0, hn => by
    have hc : cond0 (grid0.coords (⟨0, hn⟩ : Fin cfg0.N)) := (hcond0 ⟨0, hn⟩).mpr (Nat.zero_mod _)
    rw [outsAt_first m c ⟨0, hn⟩ rfl hc]
    dsimp only
    exact soutA_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) hc (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => by
    rw [outsAt_later m c ⟨n + 1, hn⟩ (Nat.succ_ne_zero n) (not_cond_succ n hn)]
    dsimp only
    exact scr_eq c n (Nat.lt_of_succ_lt hn)

/-- After every point the output's staging buffer holds the five slices over the point's adjacency blocks, the
    product and the bias row. -/
theorem out_eq (c : Dev nD) : ∀ (n : ℕ) (hn : n < cfg0.N),
    (outsAt m c n hn).1 = View.canon (pcs (adjb0 m c ⟨n, hn⟩) (adjb1 m c ⟨n, hn⟩) (adjb2 m c ⟨n, hn⟩) (adjb3 m c ⟨n, hn⟩) (adjb4 m c ⟨n, hn⟩) (sup m c) (bb m c ⟨n, hn⟩))
  | 0, hn => by
    have hc : cond0 (grid0.coords (⟨0, hn⟩ : Fin cfg0.N)) := (hcond0 ⟨0, hn⟩).mpr (Nat.zero_mod _)
    rw [outsAt_first m c ⟨0, hn⟩ rfl hc]
    dsimp only
    exact outA_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) hc (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => by
    rw [outsAt_later m c ⟨n + 1, hn⟩ (Nat.succ_ne_zero n) (not_cond_succ n hn)]
    dsimp only
    rw [scr_eq m c]
    exact outB_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (not_cond_succ n hn) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (sup m c)

/-! ## A slice, row by row -/

/-- The product read at an index is the support of the specification. -/
theorem sup_apply (c : Dev nD) (k : Fin 10000) (q : Fin 256) :
    sup m c (ix2 k q) = support (m ((c : Thread nD τ).loc main_arg0)) (m ((c : Thread nD τ).loc main_arg2)) k q := by
  unfold sup
  rw [pay4_apply, xb_eq, wb_eq]
  rfl

/-- Row `p` of the slice computed from adjacency block `r` at point `t` is the layer's function at row
    `200·t + 40·r + p`. -/
theorem slice_apply (c : Dev nD) (t : Fin cfg0.N) (r : Fin 5) (xa : Vec Ideal S40x10000 .f32)
    (hxa : ∀ (p : Fin 40) (k : Fin 10000), xa (ix2 p k) = m ((c : Thread nD τ).loc main_arg1) (ix2 (rowOf t r p) k))
    (p : Fin 40) (q : Fin 256) :
    max ((∑ k : Fin 10000, xa (ix2 p k) * sup m c (ix2 k q)) + bb m c t (ix2 (0 : Fin 1) q)) 0
      = Gm m c (ix2 (rowOf t r p) q) := by
  unfold Gm G agg
  rw [bb_apply]
  refine congrArg (fun z => max (z + m ((c : Thread nD τ).loc main_arg3) (ix1 q)) 0) ?_
  exact Finset.sum_congr rfl fun k _ => by rw [hxa p k, sup_apply]

end Cert.KernelIdeal.Val

end
-- ==== Proof.IdealCover.lean ====
/-
  The graph-convolution kernel's output window: at grid point t it is rows 200·t … 200·t + 199 of the result
  array, all 256 columns; the fifty blocks, each written back at its point, tile the array.
-/
import proofs.«118786_g12412455485612_cont_sun_m_998_14_alg».proof.Proof.IdealFrame
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- Row `200·t + y` of the result array: local row `y` of the output block at point `t`. -/
def outRow (t : Fin cfg0.N) (y : Fin 200) : Fin 10000 :=
  ⟨200 * t.val + y.val, by
    have h1 : t.val < 50 := lt_of_lt_of_eq t.isLt (show cfg0.N = 50 from N_0)
    have h2 := y.isLt; omega⟩

/-- The output window's block index at point `t` is `(t, 0)`. -/
theorem idx8 : ∀ t : Fin cfg0.N, win0_8.index t (0 : Fin 2) = t.val ∧ win0_8.index t (1 : Fin 2) = 0 :=
  (by decide +kernel : ∀ t : Fin grid0.N, _)

/-- An index of the result array is in point `t`'s block iff each coordinate is in the block's range on its axis. -/
theorem mem_blk8 (t : Fin cfg0.N) (i : S10000x256.Idx) :
    i ∈ ((cfg0.win 8).blk t).view.set ↔ ∀ a : Fin 2, win0_8.index t a * S200x256.size a ≤ (i a).val ∧ (i a).val < win0_8.index t a * S200x256.size a + S200x256.size a := by
  show i ∈ ((View.whole main_v1).slice (win0_8.rect t)).set ↔ _
  rw [View.set_slice_whole, Rect.mem_set_unit]
  exact Iff.rfl

/-- A local index of the output block at point `t`, as an index of the result array. -/
theorem emb8 (t : Fin cfg0.N) (y0 : Fin 200) (y1 : Fin 256) :
    ((cfg0.win 8).blk t).view.emb (ix2 y0 y1) = (ix2 (outRow t y0) y1 : (⟨2, ![10000, 256]⟩ : Shape).Idx) := by
  funext a
  apply Fin.ext
  match a with
  | ⟨0, _⟩ => show win0_8.index t 0 * 200 + 1 * y0.val = 200 * t.val + y0.val; rw [(idx8 t).1]; omega
  | ⟨1, _⟩ => show win0_8.index t 1 * 256 + 1 * y1.val = y1.val; rw [(idx8 t).2]; omega

/-- Every index of the result array lies in the block of the point that is written back with its row. -/
theorem cover8 (i : S10000x256.Idx) :
    ∃ t : Fin cfg0.N, (cfg0.win 8).flush t = true ∧ i ∈ ((cfg0.win 8).blk t).view.set := by
  have hi0 : (i 0).val < 10000 := (i 0).isLt
  have hi1 : (i 1).val < 256 := (i 1).isLt
  obtain ⟨t, ht⟩ : ∃ t : Fin cfg0.N, t.val = (i 0).val / 200 :=
    ⟨⟨(i 0).val / 200, lt_of_lt_of_eq (by omega : (i 0).val / 200 < 50) (show (50 : Nat) = cfg0.N from N_0.symm)⟩, rfl⟩
  refine ⟨t, flush0_8 t, ?_⟩
  rw [mem_blk8]
  intro a
  match a with
  | ⟨0, _⟩ => show win0_8.index t 0 * 200 ≤ (i 0).val ∧ (i 0).val < win0_8.index t 0 * 200 + 200; rw [(idx8 t).1]; omega
  | ⟨1, _⟩ => show win0_8.index t 1 * 256 ≤ (i 1).val ∧ (i 1).val < win0_8.index t 1 * 256 + 256; rw [(idx8 t).2]; omega

end Cert.KernelIdeal.Val

end
-- ==== Proof.IdealFinal.lean ====
/-
  The graph-convolution kernel's result array after the run, at the ideal instance: the layer's function of the
  four argument arrays.  At each point the five stored slices, read through the canon of the stores, are the
  layer's function on the point's 200 rows; what the point writes back is therefore the block of that function;
  the fifty blocks tile the array.
-/
import proofs.«118786_g12412455485612_cont_sun_m_998_14_alg».proof.Proof.IdealValue
import proofs.«118786_g12412455485612_cont_sun_m_998_14_alg».proof.Proof.IdealCover

set_option maxRecDepth 16384

noncomputable section

namespace Cert.KernelIdeal.Val

open Cert.KernelIdeal Cert.KernelIdeal.Gen Cert.KernelIdeal.Fr Cert.GcnSpec
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- The five slices tile the output block. -/
theorem pcs_cover (x0 x1 x2 x3 x4 : Vec Ideal S40x10000 .f32) (xs : Vec Ideal S10000x256 .f32) (x7 : Vec Ideal S1x256 .f32)
    (y : S200x256.Idx) : ∃ p ∈ pcs x0 x1 x2 x3 x4 xs x7, y ∈ p.1.set :=
  View.cover_of_tiledL (pcs x0 x1 x2 x3 x4 xs x7) S40x256.size (by sl_kernel_rfl) y

/-- A slice stored at row offset `40·r` of the block of point `t`, whose payload is the clamp of (adjacency block
    `r` times the product, plus the bias row), is the layer's function at the rows it lands on. -/
theorem sliceG (c : Dev nD) (t : Fin cfg0.N) (r : Fin 5) (xa : Vec Ideal S40x10000 .f32)
    (hxa : ∀ (p : Fin 40) (k : Fin 10000), xa (ix2 p k) = m ((c : Thread nD τ).loc main_arg1) (ix2 (rowOf t r p) k))
    (pay : FVec Ideal S40x256 .f32)
    (hpay : ∀ (p : Fin 40) (q : Fin 256), pay (ix2 p q)
      = max ((∑ k : Fin 10000, xa (ix2 p k) * sup m c (ix2 k q)) + bb m c t (ix2 (0 : Fin 1) q)) 0)
    (off : Fin 2 → Nat) (hoff : off = ![40 * r.val, 0]) (inb : ∀ a, off a + S40x256.size a ≤ S200x256.size a)
    (x : S40x256.Idx) :
    pay x = Gm m c (ix2 (outRow t ((Rect.unit (s := S200x256) off S40x256.size inb).emb x 0))
                        ((Rect.unit (s := S200x256) off S40x256.size inb).emb x 1)) := by
  subst hoff
  obtain ⟨p, q, rfl⟩ : ∃ (p : Fin 40) (q : Fin 256), x = ix2 p q := ⟨x 0, x 1, eq_ix2 x⟩
  rw [hpay, slice_apply m c t r xa hxa]
  refine congrArg (Gm m c) (funext fun a => ?_)
  match a with
  | ⟨0, _⟩ => exact Fin.ext (by
      show 200 * t.val + 40 * r.val + p.val = 200 * t.val + (40 * r.val + 1 * p.val); omega)
  | ⟨1, _⟩ => exact Fin.ext (by
      show q.val = 0 + 1 * q.val; omega)

/-- The canon of a point's five slices is the layer's function on the point's rows. -/
theorem blockG (c : Dev nD) (t : Fin cfg0.N) (y : S200x256.Idx) :
    View.canon (pcs (adjb0 m c t) (adjb1 m c t) (adjb2 m c t) (adjb3 m c t) (adjb4 m c t) (sup m c) (bb m c t)) y = Gm m c (ix2 (outRow t (y 0)) (y 1)) := by
  refine View.canon_apply_of_pieces (fun y : S200x256.Idx => Gm m c (ix2 (outRow t (y 0)) (y 1))) _ ?_ y
    (pcs_cover (adjb0 m c t) (adjb1 m c t) (adjb2 m c t) (adjb3 m c t) (adjb4 m c t) (sup m c) (bb m c t) y)
  intro pc hpc x
  simp only [pcs, List.mem_cons, List.not_mem_nil, or_false] at hpc
  rcases hpc with rfl | rfl | rfl | rfl | rfl
  · exact sliceG m c t 4 (adjb4 m c t) (adjb4_apply m c t) _ (pay3_apply (adjb4 m c t) (sup m c) (bb m c t)) _ rfl inb_S200x256_S40x256_160_0 x
  · exact sliceG m c t 3 (adjb3 m c t) (adjb3_apply m c t) _ (pay2_apply (adjb3 m c t) (sup m c) (bb m c t)) _ rfl inb_S200x256_S40x256_120_0 x
  · exact sliceG m c t 2 (adjb2 m c t) (adjb2_apply m c t) _ (pay1_apply (adjb2 m c t) (sup m c) (bb m c t)) _ rfl inb_S200x256_S40x256_80_0 x
  · exact sliceG m c t 1 (adjb1 m c t) (adjb1_apply m c t) _ (pay6_apply (adjb1 m c t) (sup m c) (bb m c t)) _ rfl inb_S200x256_S40x256_40_0 x
  · exact sliceG m c t 0 (adjb0 m c t) (adjb0_apply m c t) _ (pay5_apply (adjb0 m c t) (sup m c) (bb m c t)) _ rfl inb_S200x256_S40x256_0_0 x

/-- What point `t` writes back is block `t` of the layer's function of the argument arrays. -/
theorem flushed8_eq (c : Dev nD) (t : Fin cfg0.N) :
    (dats m 0 c).flushed 8 t = ((cfg0.win 8).blk t).view.read (Elt Ideal) (Gm m c) := by
  show (cfg0.win 8).cut (grid0.coords t) ((dats m 0 c).after 8 t) = _
  rw [after_8, out_eq]
  funext y
  obtain ⟨y0, y1, rfl⟩ : ∃ (y0 : Fin 200) (y1 : Fin 256), y = ix2 y0 y1 := ⟨y 0, y 1, eq_ix2 y⟩
  show View.canon (pcs (adjb0 m c t) (adjb1 m c t) (adjb2 m c t) (adjb3 m c t) (adjb4 m c t) (sup m c) (bb m c t)) (ix2 y0 y1) = Gm m c (((cfg0.win 8).blk t).view.emb (ix2 y0 y1))
  rw [emb8, blockG]

/-- So the result array ends holding the layer's function: every index is in the block of the point that is
    written back with its row. -/
theorem final8 (c : Dev nD) : (dats m 0 c).arrAt 8 cfg0.N = Gm m c :=
  (dats m 0 c).arrAt_eq_of_cover 8 (Gm m c) (fun t _ => flushed8_eq m c t) cover8

/-- The run, read: the result array at the layer's function of the argument arrays, the arguments unchanged. -/
theorem run : θ_run defs (onTc (τ := τ) (main (F := Ideal))) ⟨m, fun _ => 0, ρ⟩ fun r => ∀ c : Dev nD,
      r.2.mem ((c.tc : Thread nD τ).loc main_v1) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 8).trans (final8 m c),
     ((h c).1 5).trans (((dats m 0 c).arrAt_in 5 rfl _).trans ((A_eq m c 5).trans (V_main_arg0 m c))),
     ((h c).1 0).trans (((dats m 0 c).arrAt_in 0 rfl _).trans ((A_eq m c 0).trans (V_main_arg1 m c))),
     ((h c).1 6).trans (((dats m 0 c).arrAt_in 6 rfl _).trans ((A_eq m c 6).trans (V_main_arg2 m c))),
     ((h c).2 main_arg3 (Pipeline.mem_restRefs_of main_arg3 (by decide) (by decide))).trans (V_main_arg3 m c)⟩) (run_main m ρ)

end Cert.KernelIdeal.Val

end
-- ==== Proof.RefValue.lean ====
/-
  The reference computes the layer's function: its run ends with the result array at
  max (adj · (x · W) + b, 0), read index by index.
-/
import proofs.«118786_g12412455485612_cont_sun_m_998_14_alg».proof.Proof.Gen.ReferenceIdeal.Run
import proofs.«118786_g12412455485612_cont_sun_m_998_14_alg».proof.Proof.Gen.ReferenceIdeal.Read
import proofs.«118786_g12412455485612_cont_sun_m_998_14_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## The reference's index functions are the coordinate pairs -/

/-- The outer product reads the adjacency at row `i 0`, column `k`. -/
theorem lidx1_eq (i : S10000x256.Idx) (k : Fin 10000) :
    Read.lidx_main_v1 i k = ix2 (n0 := 10000) (n1 := 10000) (i 0) k :=
  funext fun a => Fin.ext (by match a with | ⟨0, _⟩ => rfl | ⟨1, _⟩ => rfl)

/-- The outer product reads the support at row `k`, column `i 1`; the inner product then reads the features at
    row `k`, column `j`. -/
theorem lidx0_eq (i : S10000x256.Idx) (k : Fin 10000) (j : Fin 256) :
    Read.lidx_main_v0 (Read.ridx_main_v1 i k) j = ix2 (n0 := 10000) (n1 := 256) k j :=
  funext fun a => Fin.ext (by match a with | ⟨0, _⟩ => rfl | ⟨1, _⟩ => rfl)

/-- … and the weights at row `j`, column `i 1`. -/
theorem ridx0_eq (i : S10000x256.Idx) (k : Fin 10000) (j : Fin 256) :
    Read.ridx_main_v0 (Read.ridx_main_v1 i k) j = ix2 (n0 := 256) (n1 := 256) j (i 1) :=
  funext fun a => Fin.ext (by match a with | ⟨0, _⟩ => rfl | ⟨1, _⟩ => rfl)

/-- The bias, broadcast along the rows, is read at the column `i 1`. -/
theorem bidx_eq (i : S10000x256.Idx) :
    Read.idx_main_v2 (Read.idx_main_v3 i) = ix1 (n := 256) (i 1) :=
  funext fun a => Fin.ext (by match a with | ⟨0, _⟩ => rfl)

/-! ## The reference is the layer -/

/-- The reference's result, at the extended reals, is the layer's function of the four argument arrays: at the
    index `i` it is `max (Σ_k adj[i 0, k] · (Σ_j x[k, j] · W[j, i 1]) + b[i 1], 0)`, the zero being the value of the
    all-zero bit pattern. -/
theorem ref_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) :
    Cert.ReferenceIdeal.Read.val_main_v5 (F := Ideal) x0 x1 x2 x3 = Cert.GcnSpec.G x0 x1 x2 x3 := by
  funext i
  rw [Read.val_main_v5_apply, Read.val_main_v4_apply, Read.val_main_v1_apply, Read.val_main_v3_apply,
    Read.val_main_v2_apply, Read.val_main_call0_v0_apply, Read.val_main_call0_cst_apply]
  simp only [Read.val_main_v0_apply, lidx1_eq, lidx0_eq, ridx0_eq, bidx_eq]
  rw [Ideal.ofBits_def, Ideal.ofBits_zero_f32, Ideal.maximumf_def, Ideal.addf_def]
  rfl

/-- Every weakly fair execution of the reference terminates with its result array at the layer's function `G` of
    the arguments' launch contents, and the four arguments unchanged. -/
theorem run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v5) = Cert.GcnSpec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [Read.val_main_v5_eq, ref_eq]), (h c).2⟩)
    (Cert.ReferenceIdeal.Value.run (F := Ideal) m ρ)

end Cert.ReferenceIdeal.RefValue

end
-- ==== Proof.lean ====
/-
  The certificate of a single graph-convolution layer, relu (adj · (x · W) + b), computed by one pipelined kernel
  call against its plain reference.

  The kernel streams the 10000 × 10000 adjacency matrix in fifty steps of five 40-row slabs; at the first step it
  also computes the product x · W into a scratch buffer, which every step then multiplies its slabs with, adds the
  bias and clamps at zero from below.  The reference computes x · W, then adj · (x · W), adds the bias and clamps.
  Both are the same association of the two products, so over the extended reals the two results are one function
  of the arguments, index by index, and finiteness of the inputs is never used:

      out[r, c] = max (Σ_k adj[r, k] · (Σ_j x[k, j] · W[j, c]) + b[c], 0).

  The three frames: each program runs to the end without a fault and leaves its four argument arrays as they were;
  the kernel's two frames are one argument at two value instances (the adjacency matrix is handed to the kernel
  through five windows, which hold its buffer at five shares; the scratch is tracked from point to point).
  The idealization rewrote nothing, so there is nothing to preserve.
-/
import proofs.«118786_g12412455485612_cont_sun_m_998_14_alg».proof.Defs
import proofs.«118786_g12412455485612_cont_sun_m_998_14_alg».proof.Proof.Gen.Kernel
import proofs.«118786_g12412455485612_cont_sun_m_998_14_alg».proof.Proof.Gen.KernelIdeal
import proofs.«118786_g12412455485612_cont_sun_m_998_14_alg».proof.Proof.Gen.ReferenceIdeal
import proofs.«118786_g12412455485612_cont_sun_m_998_14_alg».proof.Proof.Gen.Pre_finite_inputs
import proofs.«118786_g12412455485612_cont_sun_m_998_14_alg».proof.Proof.BitsFrame
import proofs.«118786_g12412455485612_cont_sun_m_998_14_alg».proof.Proof.IdealFinal
import proofs.«118786_g12412455485612_cont_sun_m_998_14_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : @Cert.frame_Kernel Cert.Kernel.Gen.facts Cert.Pre_finite_inputs.Gen.facts :=
  fun m ρ _ => Cert.Kernel.Fr.frame m ρ

/-- The idealized kernel runs and keeps its arguments. -/
theorem frame_ki : @Cert.frame_KernelIdeal Cert.KernelIdeal.Gen.facts Cert.Pre_finite_inputs.Gen.facts :=
  fun m ρ _ => Cert.KernelIdeal.Fr.frame m ρ

/-- The reference runs and keeps its arguments: its value run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_G m ρ)

/-- From memories that agree on the arguments both programs end with the layer's function of those arguments in
    their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Val.Gm m c, Cert.KernelIdeal.Val.run m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
